-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16384 : Shape := ⟨2, ![256, 16384]⟩
abbrev S1000000 : Shape := ⟨1, ![1000000]⟩
abbrev S16384 : Shape := ⟨1, ![16384]⟩
abbrev S_ : Shape := ⟨0, ![]⟩

class Facts : Prop where
  bcast_S_S256x16384 : S_.BroadcastsInDim S256x16384 (![] : Fin 0 → Fin S256x16384.rank)
  reducesTo_S256x16384_S_d0_1 : S256x16384.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S1000000 32) (main_arg4 : IVec S1000000 32) (main_v13 : IVec S_ 1) (main_v15 : IVec S1000000 1) (main_c_5 : IVec S_ 1) : IVec S_ 1 :=
  let main_v16 : IVec S_ 1 := (fun x v => Host.reduce IntOp.andi x v reducesTo_S1000000_S_d0 h_S_) main_v15 main_c_5
  let main_v17 : IVec S_ 1 := andi main_v13 main_v16
  let main_c_6 : IVec S_ 32 := constantI S_ 32 16384#32
  let main_v18 : IVec S1000000 32 := broadcastInDim S1000000 ![] bcast_S_S1000000 main_c_6
  let main_v19 : IVec S1000000 1 := cmpi .slt main_arg3 main_v18
  let main_c_7 : IVec S_ 1 := constantI S_ 1 1#1
  let main_v20 : IVec S_ 1 := (fun x v => Host.reduce IntOp.andi x v reducesTo_S1000000_S_d0 h_S_) main_v19 main_c_7
  let main_v21 : IVec S_ 1 := andi main_v17 main_v20
  let main_c_8 : IVec S_ 32 := constantI S_ 32 0#32
  let main_v22 : IVec S1000000 32 := broadcastInDim S1000000 ![] bcast_S_S1000000 main_c_8
  let main_v23 : IVec S1000000 1 := cmpi .sge main_arg4 main_v22
  let main_c_9 : IVec S_ 1 := constantI S_ 1 1#1
  let main_v24 : IVec S_ 1 := (fun x v => Host.reduce IntOp.andi x v reducesTo_S1000000_S_d0 h_S_) main_v23 main_c_9
  let main_v25 : IVec S_ 1 := andi main_v21 main_v24
  let main_c_10 : IVec S_ 32 := constantI S_ 32 16384#32
  let main_v26 : IVec S1000000 32 := broadcastInDim S1000000 ![] bcast_S_S1000000 main_c_10
  let main_v27 : IVec S1000000 1 := cmpi .slt main_arg4 main_v26
  let main_c_11 : IVec S_ 1 := constantI S_ 1 1#1
  let main_v28 : IVec S_ 1 := (fun x v => Host.reduce IntOp.andi x v reducesTo_S1000000_S_d0 h_S_) main_v27 main_c_11
  let main_v29 : IVec S_ 1 := andi main_v25 main_v28
  main_v29

def fn {F : FTy → Type} [FloatOps F] (main_arg0 : FVec F S256x16384 .f32) (main_arg1 : FVec F S1000000 .f32) (main_arg2 : FVec F S16384 .f32) (main_arg3 : IVec S1000000 32) (main_arg4 : IVec S1000000 32) : IVec S_ 1 :=
  let main_v0 : FVec F S256x16384 .f32 := Host.absf main_arg0
  let main_cst : FVec F S_ .f32 := constant S_ .f32 0x7F800000#32
  let main_v1 : FVec F S256x16384 .f32 := broadcastInDim S256x16384 ![] bcast_S_S256x16384 main_cst
  let main_v2 : IVec S256x16384 1 := cmpf .olt main_v0 main_v1
  let main_c : IVec S_ 1 := constantI S_ 1 1#1
  let main_v3 : IVec S_ 1 := (fun x v => Host.reduce IntOp.andi x v reducesTo_S256x16384_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_c_4 : IVec S_ 32 := constantI S_ 32 0#32
  let main_v14 : IVec S1000000 32 := broadcastInDim S1000000 ![] bcast_S_S1000000 main_c_4
  let main_v15 : IVec S1000000 1 := cmpi .sge main_arg3 main_v14
  let main_c_5 : IVec S_ 1 := constantI S_ 1 1#1
  fn_part1 (F := F) main_arg3 main_arg4 main_v13 main_v15 main_c_5
-- ==== Kernel.lean ====
abbrev S256x16384 : Shape := ⟨2, ![256, 16384]⟩
abbrev S1000000 : Shape := ⟨1, ![1000000]⟩
abbrev S16384 : Shape := ⟨1, ![16384]⟩
abbrev S_ : Shape := ⟨0, ![]⟩
abbrev S16384x16384 : Shape := ⟨2, ![16384, 16384]⟩
abbrev S1000000x1 : Shape := ⟨2, ![1000000, 1]⟩
abbrev S1000000x2 : Shape := ⟨2, ![1000000, 2]⟩
abbrev S1x16384 : Shape := ⟨2, ![1, 16384]⟩
abbrev S256x1024 : Shape := ⟨2, ![256, 1024]⟩
abbrev S2048x1024 : Shape := ⟨2, ![2048, 1024]⟩
abbrev S1x2048 : Shape := ⟨2, ![1, 2048]⟩
abbrev S256x2048 : Shape := ⟨2, ![256, 2048]⟩

abbrev nBuf : Space → Nat
  | .hbm => 27
  | .vmem => 9
  | .smem => 0
  | _ => 0

abbrev bufTy : (tb : Table) → Fin (tcTables nBuf tb) → BufTy
  | .hbm, ⟨0, _⟩ => ⟨S256x16384, .f32⟩
  | .hbm, ⟨1, _⟩ => ⟨S1000000, .f32⟩
  | .hbm, ⟨2, _⟩ => ⟨S16384, .f32⟩
  | .hbm, ⟨3, _⟩ => ⟨S1000000, .i32⟩
  | .hbm, ⟨4, _⟩ => ⟨S1000000, .i32⟩
  | .hbm, ⟨5, _⟩ => ⟨S_, .f32⟩
  | .hbm, ⟨6, _⟩ => ⟨S16384x16384, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x1, .i32⟩
  | .hbm, ⟨23, _⟩ => ⟨S1000000x2, .i32⟩
  | .hbm, ⟨24, _⟩ => ⟨S16384x16384, .f32⟩
  | .hbm, ⟨25, _⟩ => ⟨S1x16384, .f32⟩
  | .hbm, ⟨26, _⟩ => ⟨S256x16384, .f32⟩
  | .local _ .vmem, ⟨0, _⟩ => ⟨S256x1024, .f32⟩
  | .local _ .vmem, ⟨1, _⟩ => ⟨S256x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_c_0 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_v6 : Ref sig .tc := ⟨.hbm, 15, rfl⟩
abbrev main_call0_v7 : Ref sig .tc := ⟨.hbm, 16, rfl⟩
abbrev main_call0_c_2 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16384x16384 : S_.BroadcastsInDim S16384x16384 (![] : Fin 0 → Fin S16384x16384.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  shapeCasts_S16384_S1x16384 : S16384.ShapeCasts S1x16384
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  scatter_S16384x16384_S1000000x2_S1000000_n_01_01_1_wf : ScatterDims.WF S16384x16384 S1000000x2 S1000000 [] [0, 1] [0, 1] 1
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x16384.size a
  hwx0_0 : ∀ i : grid0.Coords, EltTy.bits .f32 = 32 ∨ (Rect.block (s := S256x16384) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x16384.size a
  hwx0_1 : ∀ i : grid0.Coords, EltTy.bits .f32 = 32 ∨ (Rect.block (s := S16384x16384) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x16384.size a
  hwx0_3 : ∀ i : grid0.Coords, EltTy.bits .f32 = 32 ∨ (Rect.block (s := S256x16384) S256x2048.size (cc0_transform_3 i) (hinb0_3 i)).WholeWords (EltTy.packing .f32)

variable [Facts₀]

def scatter_S16384x16384_S1000000x2_S1000000_n_01_01_1 : ScatterDims S16384x16384 S1000000x2 S1000000 where
  updateWindowDims := []
  insertedWindowDims := [0, 1]
  scatterDimsToOperandDims := [0, 1]
  indexVectorDim := 1
  wf := scatter_S16384x16384_S1000000x2_S1000000_n_01_01_1_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x16384 : Shape := ⟨2, ![256, 16384]⟩
abbrev S1000000 : Shape := ⟨1, ![1000000]⟩
abbrev S16384 : Shape := ⟨1, ![16384]⟩
abbrev S_ : Shape := ⟨0, ![]⟩
abbrev S1000000x1 : Shape := ⟨2, ![1000000, 1]⟩
abbrev S256x1000000 : Shape := ⟨2, ![256, 1000000]⟩
abbrev S1x1000000 : Shape := ⟨2, ![1, 1000000]⟩
abbrev S1000000x256 : Shape := ⟨2, ![1000000, 256]⟩
abbrev S16384x256 : Shape := ⟨2, ![16384, 256]⟩
abbrev S1x16384 : Shape := ⟨2, ![1, 16384]⟩

abbrev nBuf : Space → Nat
  | .hbm => 26
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S1000000, .f32⟩
  | .hbm, ⟨2, _⟩ => ⟨S16384, .f32⟩
  | .hbm, ⟨3, _⟩ => ⟨S1000000, .i32⟩
  | .hbm, ⟨4, _⟩ => ⟨S1000000, .i32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S256x1000000, .f32⟩
  | .hbm, ⟨14, _⟩ => ⟨S1x1000000, .f32⟩
  | .hbm, ⟨15, _⟩ => ⟨S256x1000000, .f32⟩
  | .hbm, ⟨16, _⟩ => ⟨S256x1000000, .f32⟩
  | .hbm, ⟨17, _⟩ => ⟨S1000000x256, .f32⟩
  | .hbm, ⟨18, _⟩ => ⟨S_, .f32⟩
  | .hbm, ⟨19, _⟩ => ⟨S16384x256, .f32⟩
  | .hbm, ⟨20, _⟩ => ⟨S1000000x1, .i32⟩
  | .hbm, ⟨21, _⟩ => ⟨S16384x256, .f32⟩
  | .hbm, ⟨22, _⟩ => ⟨S256x16384, .f32⟩
  | .hbm, ⟨23, _⟩ => ⟨S1x16384, .f32⟩
  | .hbm, ⟨24, _⟩ => ⟨S256x16384, .f32⟩
  | .hbm, ⟨25, _⟩ => ⟨S256x16384, .f32⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000_S1x1000000_1 : S1000000.BroadcastsInDim S1x1000000 (![1] : Fin 1 → Fin S1x1000000.rank)
  bcast_S1x1000000_S256x1000000_0_1 : S1x1000000.BroadcastsInDim S256x1000000 (![0, 1] : Fin 2 → Fin S256x1000000.rank)
  transposes_S256x1000000_S1000000x256_1_0 : S256x1000000.Transposes [1, 0] S1000000x256
  bcast_S_S16384x256 : S_.BroadcastsInDim S16384x256 (![] : Fin 0 → Fin S16384x256.rank)
  transposes_S16384x256_S256x16384_1_0 : S16384x256.Transposes [1, 0] S256x16384
  bcast_S16384_S1x16384_1 : S16384.BroadcastsInDim S1x16384 (![1] : Fin 1 → Fin S1x16384.rank)
  bcast_S1x16384_S256x16384_0_1 : S1x16384.BroadcastsInDim S256x16384 (![0, 1] : Fin 2 → Fin S256x16384.rank)
  gather_S256x16384_S1000000x1_S256x1000000_0_1_n_n_1_1_2561_wf : GatherDims.WF S256x16384 S1000000x1 S256x1000000 [0] [1] [] [1] [] 1 ![256, 1]
  scatter_S16384x256_S1000000x1_S1000000x256_1_0_0_1_wf : ScatterDims.WF S16384x256 S1000000x1 S1000000x256 [1] [0] [0] 1

variable [Facts₀]

def gather_S256x16384_S1000000x1_S256x1000000_0_1_n_n_1_1_2561 : GatherDims S256x16384 S1000000x1 S256x1000000 where
  offsetDims := [0]
  collapsedSliceDims := [1]
  operandBatchingDims := []
  startIndicesBatchingDims := []
  startIndexMap := [1]
  indexVectorDim := 1
  sliceSizes := ![256, 1]
  wf := gather_S256x16384_S1000000x1_S256x1000000_0_1_n_n_1_1_2561_wf
def scatter_S16384x256_S1000000x1_S1000000x256_1_0_0_1 : ScatterDims S16384x256 S1000000x1 S1000000x256 where
  updateWindowDims := [1]
  insertedWindowDims := [0]
  scatterDimsToOperandDims := [0]
  indexVectorDim := 1
  wf := scatter_S16384x256_S1000000x1_S1000000x256_1_0_0_1_wf

class Facts : Prop extends Facts₀ where

variable [Facts]
-- ==== Proof.Pieces.lean ====
/-
  What each kind of grid point leaves behind, as values.

  A point with k = 0 stores zero into the accumulator, reads it back and stores the accumulation over it: the accumulator
  ends at the accumulation of the zero block. A point with 0 < k < 15 stores the accumulation over what the point before
  left. The point with k = 15 does the same and then stores, into the output tile, the result value of the accumulator it
  has just written and the bias row.
-/
import proofs.«411924_j49538152792604_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A point with 0 < k < 15: the accumulator ends at the accumulation over what it held. -/
theorem scratch_mid (c : Dev nD) (i : grid0.Coords) (arg2 : Memref sig .tc .vmem S256x1024 .f32) (harg2 : arg2.IsWhole)
    (arg3 : Memref sig .tc .vmem S2048x1024 .f32) (harg3 : arg3.IsWhole) (arg4 : Memref sig .tc .vmem S1x2048 .f32) (harg4 : arg4.IsWhole)
    (arg5 : Memref sig .tc .vmem S256x2048 .f32) (harg5 : arg5.IsWhole) (arg6 : Memref sig .tc .vmem S256x2048 .f32) (harg6 : arg6.IsWhole)
    (hc0 : ¬cond0_0 i) (hc1 : ¬cond0_1 i) (x0 : Vec F S256x1024 .f32) (x1 : Vec F S2048x1024 .f32) (x2 : Vec F S1x2048 .f32)
    (xs0 : Vec F S256x2048 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg6.read_unread,
    View.ld_unit_zero (S := S256x1024) hz, View.ld_unit_zero (S := S2048x1024) hz, View.ld_unit_zero (S := S256x2048) hz]

/-- The point with k = 15: the accumulator ends at the accumulation over what it held, -/
theorem scratch_last (c : Dev nD) (i : grid0.Coords) (arg2 : Memref sig .tc .vmem S256x1024 .f32) (harg2 : arg2.IsWhole)
    (arg3 : Memref sig .tc .vmem S2048x1024 .f32) (harg3 : arg3.IsWhole) (arg4 : Memref sig .tc .vmem S1x2048 .f32) (harg4 : arg4.IsWhole)
    (arg5 : Memref sig .tc .vmem S256x2048 .f32) (harg5 : arg5.IsWhole) (arg6 : Memref sig .tc .vmem S256x2048 .f32) (harg6 : arg6.IsWhole)
    (hc0 : ¬cond0_0 i) (hc1 : cond0_1 i) (x0 : Vec F S256x1024 .f32) (x1 : Vec F S2048x1024 .f32) (x2 : Vec F S1x2048 .f32)
    (xs0 : Vec F S256x2048 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread,
    View.ld_unit_zero (S := S256x1024) hz, View.ld_unit_zero (S := S2048x1024) hz, View.ld_unit_zero (S := S256x2048) hz]

/-- and the output tile at the result value of that accumulator and the bias row. -/
theorem output_last (c : Dev nD) (i : grid0.Coords) (arg2 : Memref sig .tc .vmem S256x1024 .f32) (harg2 : arg2.IsWhole)
    (arg3 : Memref sig .tc .vmem S2048x1024 .f32) (harg3 : arg3.IsWhole) (arg4 : Memref sig .tc .vmem S1x2048 .f32) (harg4 : arg4.IsWhole)
    (arg5 : Memref sig .tc .vmem S256x2048 .f32) (harg5 : arg5.IsWhole) (arg6 : Memref sig .tc .vmem S256x2048 .f32) (harg6 : arg6.IsWhole)
    (hc0 : ¬cond0_0 i) (hc1 : cond0_1 i) (x0 : Vec F S256x1024 .f32) (x1 : Vec F S2048x1024 .f32) (x2 : Vec F S1x2048 .f32)
    (xs0 : Vec F S256x2048 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.readCov_unit_zero (S := S256x2048) _ hz,
    View.ld_unit_zero (S := S256x1024) hz, View.ld_unit_zero (S := S2048x1024) hz, View.ld_unit_zero (S := S256x2048) hz,
    View.ld_unit_zero (S := S1x2048) hz]

/-- A point with k = 0: the accumulator ends at the accumulation over the zero block. -/
theorem scratch_first (c : Dev nD) (i : grid0.Coords) (arg2 : Memref sig .tc .vmem S256x1024 .f32) (harg2 : arg2.IsWhole)
    (arg3 : Memref sig .tc .vmem S2048x1024 .f32) (harg3 : arg3.IsWhole) (arg4 : Memref sig .tc .vmem S1x2048 .f32) (harg4 : arg4.IsWhole)
    (arg5 : Memref sig .tc .vmem S256x2048 .f32) (harg5 : arg5.IsWhole) (arg6 : Memref sig .tc .vmem S256x2048 .f32) (harg6 : arg6.IsWhole)
    (hc0 : cond0_0 i) (hc1 : ¬cond0_1 i) (x0 : Vec F S256x1024 .f32) (x1 : Vec F S2048x1024 .f32) (x2 : Vec F S1x2048 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x2048) hz, View.readCov_unit_zero (S := S256x2048) _ hz]
  simp only [View.readAt_eq_ld, harg2.read_unread, harg3.read_unread,
    View.ld_unit_zero (S := S256x1024) hz, View.ld_unit_zero (S := S2048x1024) hz, View.ld_unit_zero (S := S256x2048) hz]

end Cert.KernelIdeal.Pieces

end
-- ==== Proof.LibDotNT.lean ====
/-
  A matrix product that contracts the second axis of both operands, read at an entry.

  For dimension numbers that contract the left operand's axis 1 with the right operand's axis 1 and have no batch axis,
  entry (p, q) of the product of an [M × K] array with an [N × K] array is the sum over k of left (p, k) times
  right (q, k): the left array times the transpose of the right one. The hypotheses are the printed dimension numbers,
  each closed by `rfl` at a use.
-/
import Idealize.ShloMosaic.PureOps.Ideal
import Idealize.ShloMosaic.PureOps.Ideal.Laws
import Idealize.ShloMosaic.Lib.ValueIdx

noncomputable section

namespace Cert.LibDotNT

open Idealize.ShloMosaic Idealize.ShloMosaic.ValueIdx

variable {M K N : ℕ} (d : DotDims ⟨2, ![M, K]⟩ ⟨2, ![N, K]⟩ ⟨2, ![M, N]⟩)

/-- One index read at two positions that are equal numbers gives one value. -/
private theorem coord_congr {s : Shape} (j : s.Idx) (p q : ℕ) (hp : p < s.rank) (hq : q < s.rank) (h : p = q) :
    (j ⟨p, hp⟩).val = (j ⟨q, hq⟩).val := by subst h; rfl

/-- The left operand is read in the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand is read in the row the result's column names. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- The contraction shape has one axis, -/
theorem contr_rank (hlc : d.lhsContracting = [1]) : d.contr.rank = 1 := by rw [d.rank_contr, hlc]; rfl

/-- of extent K. -/
theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (q, k). -/
theorem sum_contr (hlc : d.lhsContracting = [1]) (hrc : d.rhsContracting = [1]) (hln : d.lhsNonContracting = [0])
    (hrn : d.rhsNonContracting = [0]) (hlb : d.lhsBatch = []) (hrb : d.rhsBatch = [])
    (x : (⟨2, ![M, K]⟩ : Shape).Idx → EReal) (w : (⟨2, ![N, K]⟩ : Shape).Idx → EReal) (p : Fin M) (q : Fin N) :
    ∑ k : d.contr.Idx, x (d.lhsIdx (ix2 p q) k) * w (d.rhsIdx (ix2 p q) k) = ∑ kk : Fin K, x (ix2 p kk) * w (ix2 q kk) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 q kk := by
    funext a; apply Fin.ext
    match a with
    | ⟨0, _⟩ => exact rhs_row d hln hrn hlb hrb _ _
    | ⟨1, _⟩ => exact (rhs_col d hrc _ _).trans hk
  rw [el, er]

/-- The vector unit's product into a zero accumulator, read at (p, q). -/
theorem matmul_zero_apply {φ₁ φ₂ : FTy} (prec : Option ContractPrecision)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (p : Fin M) (q : Fin N) :
    FloatOps.matmul d prec x w (constant ⟨2, ![M, N]⟩ .f32 0x00000000#32) (ix2 p q) = ∑ kk : Fin K, x (ix2 p kk) * w (ix2 q kk) := by
  rw [Ideal.matmul_constant_zero_apply]
  exact sum_contr d hlc hrc hln hrn hlb hrb x w p q

end Cert.LibDotNT

end
-- ==== Proof.Payload.lean ====
/-
  What one grid point computes, entry by entry, at the ideal instance.

  The body has three stored values. The reset value is zero everywhere. The accumulation adds to the accumulator, at
  (b, q), the product of the x tile's row b with the weight tile's row q (the weight tile is used transposed; the two
  changes of float format are the identity here). The result value adds the bias row's entry q to the accumulator's
  entry (b, q).
-/
import proofs.«411924_j49538152792604_2_alg».proof.Proof.Gen.KernelIdeal.Skeleton
import proofs.«411924_j49538152792604_2_alg».proof.Proof.LibDotNT
import Idealize.ShloMosaic.Lib.Pipeline.Value
import Idealize.ShloMosaic.Lib.ValueLayout

noncomputable section

namespace Cert.KernelIdeal.Payload

open Idealize.ShloMosaic Idealize.ShloMosaic.ValueIdx Idealize.ShloMosaic.Pipeline
open Cert.KernelIdeal Cert.KernelIdeal.Gen

/-- The reset value is zero. -/
theorem reset_apply (i : S256x2048.Idx) : k0_pay1 (F := Ideal) i = 0 := by
  unfold k0_pay1
  rw [shapeCast_self]
  exact Ideal.ofBits_zero_f32

/-- The accumulation at (b, q): the accumulator there plus row b of the x tile against row q of the weight tile. -/
theorem accumulate_apply (x0 : Vec Ideal S256x1024 .f32) (x1 : Vec Ideal S2048x1024 .f32) (acc : Vec Ideal S256x2048 .f32)
    (b : Fin 256) (q : Fin 2048) :
    k0_pay2 x0 x1 acc (ix2 b q) = acc (ix2 b q) + ∑ kk : Fin 1024, x0 (ix2 b kk) * x1 (ix2 q kk) := by
  unfold k0_pay2
  simp only [shapeCast_self]
  rw [addf_apply]
  congr 1
  exact Cert.LibDotNT.matmul_zero_apply dot_S256x1024_S2048x1024_S256x2048_1_1_0_0_n_n none rfl rfl rfl rfl rfl rfl _ _ b q

/-- The result value at (b, q): the accumulator there plus the bias row's entry q. -/
theorem result_apply (a : Vec Ideal S256x2048 .f32) (v : Vec Ideal S1x2048 .f32) (b : Fin 256) (q : Fin 2048) :
    k0_pay3 a v (ix2 b q) = a (ix2 b q) + v (ix2 (0 : Fin 1) q) := by
  unfold k0_pay3
  simp only [shapeCast_self]
  rw [addf_apply]
  congr 1
  exact broadcastTo_1b_ab_apply _ _ b q

end Cert.KernelIdeal.Payload

end
-- ==== Proof.Tiles.lean ====
/-
  The tiles a grid point works on, read off the arrays.

  The grid has 8 × 16 points, numbered row-major: point t has n = t / 16 (the tile of output features) and k = t % 16 (the
  tile of input features). At point t the x tile is columns k·1024 … k·1024 + 1023 of x, the weight tile is rows
  n·2048 … n·2048 + 2047 and those columns of W, the bias tile is columns n·2048 … of the bias row, and the output tile is
  columns n·2048 … of the result.
-/
import proofs.«411924_j49538152792604_2_alg».proof.Proof.Gen.KernelIdeal.Frame
import Idealize.ShloMosaic.Lib.Pipeline.Value
import Idealize.ShloMosaic.Lib.ValueIdx

noncomputable section

namespace Cert.KernelIdeal.Tiles

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The printed index maps at point t: block row and block column of each window. -/
theorem idx_facts : ∀ t : Fin cfg0.N,
    win0_0.index t (0 : Fin 2) = 0 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val / 16
    ∧ win0_3.index t (0 : Fin 2) = 0 ∧ win0_3.index t (1 : Fin 2) = t.val / 16 :=
  (by decide +kernel : ∀ t : Fin grid0.N, _)

/-- Column kk of point t's input-feature tile, as a column of x. -/
def colPos (t : Fin cfg0.N) (kk : Fin 1024) : Fin 16384 :=
  ⟨t.val % 16 * 1024 + kk.val, by have := kk.isLt; have := Nat.mod_lt t.val (by decide : 0 < 16); omega⟩

/-- Row q of point t's output-feature tile, as an output feature. -/
def rowPos (t : Fin cfg0.N) (q : Fin 2048) : Fin 16384 :=
  ⟨t.val / 16 * 2048 + q.val, by have hN : cfg0.N = 128 := N_0; have := t.isLt; have := q.isLt; omega⟩

/-- The x tile at (b, kk) is x at (b, k·1024 + kk). -/
theorem xtile_apply (c : Dev nD) (t : Fin cfg0.N) (b : Fin 256) (kk : Fin 1024) :
    iblk m c 0 t (ix2 b kk) = V m c main_arg0 (ix2 b (colPos t kk)) := by
  obtain ⟨e0, e1, -⟩ := idx_facts t
  show V m c main_arg0 (((cfg0.win 0).blk t).view.emb (ix2 b kk)) = V m c main_arg0 (ix2 b (colPos t kk))
  congr 1
  funext a; apply Fin.ext
  match a with
  | ⟨0, _⟩ => show win0_0.index t (0 : Fin 2) * 256 + 1 * b.val = b.val; omega
  | ⟨1, _⟩ => show win0_0.index t (1 : Fin 2) * 1024 + 1 * kk.val = t.val % 16 * 1024 + kk.val; omega

/-- The weight tile at (q, kk) is W at (n·2048 + q, k·1024 + kk). -/
theorem wtile_apply (c : Dev nD) (t : Fin cfg0.N) (q : Fin 2048) (kk : Fin 1024) :
    iblk m c 1 t (ix2 q kk) = V m c main_call0_v14 (ix2 (rowPos t q) (colPos t kk)) := by
  obtain ⟨-, -, e0, e1, -⟩ := idx_facts t
  show V m c main_call0_v14 (((cfg0.win 1).blk t).view.emb (ix2 q kk)) = V m c main_call0_v14 (ix2 (rowPos t q) (colPos t kk))
  congr 1
  funext a; apply Fin.ext
  match a with
  | ⟨0, _⟩ => show win0_1.index t (0 : Fin 2) * 2048 + 1 * q.val = t.val / 16 * 2048 + q.val; omega
  | ⟨1, _⟩ => show win0_1.index t (1 : Fin 2) * 1024 + 1 * kk.val = t.val % 16 * 1024 + kk.val; omega

/-- The bias tile at (0, q) is the bias row at (0, n·2048 + q). -/
theorem btile_apply (c : Dev nD) (t : Fin cfg0.N) (q : Fin 2048) :
    iblk m c 2 t (ix2 (0 : Fin 1) q) = V m c main_call0_v15 (ix2 (0 : Fin 1) (rowPos t q)) := by
  obtain ⟨-, -, -, -, e0, e1, -⟩ := idx_facts t
  show V m c main_call0_v15 (((cfg0.win 2).blk t).view.emb (ix2 (0 : Fin 1) q)) = V m c main_call0_v15 (ix2 (0 : Fin 1) (rowPos t q))
  congr 1
  funext a; apply Fin.ext
  match a with
  | ⟨0, _⟩ => show win0_2.index t (0 : Fin 2) * 1 + 1 * 0 = 0; omega
  | ⟨1, _⟩ => show win0_2.index t (1 : Fin 2) * 2048 + 1 * q.val = t.val / 16 * 2048 + q.val; omega

/-- Entry (b, q) of the output tile is entry (b, n·2048 + q) of the result. -/
theorem otile_emb (t : Fin cfg0.N) (b : Fin 256) (q : Fin 2048) :
    ((cfg0.win 3).blk t).view.emb (ix2 b q) = (ix2 b (rowPos t q) : S256x16384.Idx) := by
  obtain ⟨-, -, -, -, -, -, e0, e1⟩ := idx_facts t
  funext a; apply Fin.ext
  match a with
  | ⟨0, _⟩ => show win0_3.index t (0 : Fin 2) * 256 + 1 * b.val = b.val; omega
  | ⟨1, _⟩ => show win0_3.index t (1 : Fin 2) * 2048 + 1 * q.val = t.val / 16 * 2048 + q.val; omega

end Cert.KernelIdeal.Tiles

end
-- ==== Proof.Accumulate.lean ====
/-
  The accumulator across the k axis.

  Write tile(p) for what grid point p adds to the accumulator at (b, q): row b of its x tile against row q of its weight
  tile, that is  Σ_kk x[b, k·1024 + kk] · W[n·2048 + q, k·1024 + kk]  with n = p / 16 and k = p % 16. The 16 points of one
  n are consecutive; the first resets the accumulator to zero before adding, the others add to what the point before
  left. So after point p the accumulator at (b, q) is  Σ_{s ≤ p % 16} tile(16·(p / 16) + s)(b, q).
-/
import proofs.«411924_j49538152792604_2_alg».proof.Proof.Pieces
import proofs.«411924_j49538152792604_2_alg».proof.Proof.Payload
import proofs.«411924_j49538152792604_2_alg».proof.Proof.Tiles

noncomputable section

namespace Cert.KernelIdeal.Accumulate

open Idealize.ShloMosaic Idealize.ShloMosaic.TcCoe Idealize.ShloMosaic.ValueIdx Idealize.SL.Sem
open Cert.KernelIdeal Cert.KernelIdeal.Gen Cert.KernelIdeal.Tiles

variable (m : (ℓ : Loc nD τ sig) → Buf (Elt Ideal) ℓ)

/-- Column kk of point p's input-feature tile. -/
def colAt (p : ℕ) (kk : Fin 1024) : Fin 16384 :=
  ⟨p % 16 * 1024 + kk.val, by have := kk.isLt; have := Nat.mod_lt p (by decide : 0 < 16); omega⟩

/-- Row q of point p's output-feature tile. -/
def rowAt (p : ℕ) (q : Fin 2048) : Fin 16384 :=
  ⟨p / 16 % 8 * 2048 + q.val, by have := q.isLt; have := Nat.mod_lt (p / 16) (by decide : 0 < 8); omega⟩

theorem colPos_eq (t : Fin cfg0.N) (kk : Fin 1024) : colPos t kk = colAt t.val kk := rfl

theorem rowPos_eq (t : Fin cfg0.N) (q : Fin 2048) : rowPos t q = rowAt t.val q := by
  apply Fin.ext
  have hN : cfg0.N = 128 := N_0
  have := t.isLt
  show t.val / 16 * 2048 + q.val = t.val / 16 % 8 * 2048 + q.val
  omega

/-- The x array and the weight array as the region finds them. -/
abbrev xArr (c : Dev nD) : S256x16384.Idx → EReal := V m c main_arg0
abbrev wArr (c : Dev nD) : S16384x16384.Idx → EReal := V m c main_call0_v14

/-- What point p adds to the accumulator at (b, q). -/
def tile (c : Dev nD) (p : ℕ) (b : Fin 256) (q : Fin 2048) : EReal :=
  ∑ kk : Fin 1024, xArr m c (ix2 b (colAt p kk)) * wArr m c (ix2 (rowAt p q) (colAt p kk))

/-- One point's accumulation over any previous contents. -/
theorem step (c : Dev nD) (t : Fin cfg0.N) (prev : Vec Ideal S256x2048 .f32) (b : Fin 256) (q : Fin 2048) :
    k0_pay2 (iblk m c 0 t) (iblk m c 1 t) prev (ix2 b q) = prev (ix2 b q) + tile m c t.val b q := by
  refine (Payload.accumulate_apply (iblk m c 0 t) (iblk m c 1 t) prev b q).trans ?_
  congr 1
  unfold tile
  refine Finset.sum_congr rfl fun kk _ => ?_
  rw [xtile_apply m c t b kk, wtile_apply m c t q kk, colPos_eq, rowPos_eq]

/-- The accumulator after point p. -/
theorem acc_eq (c : Dev nD) : ∀ (p : ℕ) (hp : p < cfg0.N) (b : Fin 256) (q : Fin 2048),
    (outsAt0 m c p hp).2 (ix2 b q) = ∑ s ∈ Finset.range (p % 16 + 1), tile m c (16 * (p / 16) + s) b q := by
  intro p
  induction p with
  | zero =>
    intro hp b q
    rw [outsAt0_A m c ⟨0, hp⟩ (by rfl) (by show ¬(0 % 16 = 15); decide)]
    dsimp only
    rw [Pieces.scratch_first, step m c ⟨0, hp⟩ _ b q, Payload.reset_apply, zero_add]
    simp
  | succ p ih =>
    intro hp b q
    have hN : cfg0.N = 128 := N_0
    by_cases h0 : (p + 1) % 16 = 0
    · have h1 : ¬(p + 1) % 16 = 15 := by omega
      rw [outsAt0_A m c ⟨p + 1, hp⟩ h0 h1]
      dsimp only
      rw [Pieces.scratch_first, step m c ⟨p + 1, hp⟩ _ b q, Payload.reset_apply, zero_add]
      show tile m c (p + 1) b q = _
      rw [h0, Finset.sum_range_one]
      congr 1
      omega
    · have hprev := ih (Nat.lt_of_succ_lt hp) b q
      have e1 : p % 16 + 1 = (p + 1) % 16 := by omega
      have e2 : p / 16 = (p + 1) / 16 := by omega
      have e3 : 16 * ((p + 1) / 16) + (p + 1) % 16 = p + 1 := by omega
      rw [e1, e2] at hprev
      have key : (outsAt0 m c (p + 1) hp).2 (ix2 b q)
          = (outsAt0 m c p (Nat.lt_of_succ_lt hp)).2 (ix2 b q) + tile m c (p + 1) b q := by
        by_cases h1 : (p + 1) % 16 = 15
        · rw [outsAt0_C m c ⟨p + 1, hp⟩ h0 h1]
          dsimp only
          rw [Pieces.scratch_last]
          exact step m c ⟨p + 1, hp⟩ _ b q
        · rw [outsAt0_B m c ⟨p + 1, hp⟩ h0 h1]
          dsimp only
          rw [Pieces.scratch_mid]
          exact step m c ⟨p + 1, hp⟩ _ b q
      rw [key, hprev, Finset.sum_range_succ, e3]

end Cert.KernelIdeal.Accumulate

end
-- ==== Proof.Spec.lean ====
/-
  The sparse linear layer  y = x · Wᵀ + b,  with W given by its nonzero entries.

  W is a D × D matrix given edge by edge: edge e carries the weight w e at row (rows e), column (cols e), and edges that
  share a position add up. Entry (b, n) of the result is

      y[b, n] = Σ_{e : rows e = n} x[b, cols e] · w e  +  bias n            (the edge sum, `spec`)

  which is also  Σ_k x[b, k] · W[n, k] + bias n  with  W[n, k] = Σ_{e : rows e = n, cols e = k} w e  (`dense`): the
  second form distributes x[b, k] over the edges at (n, k) and then collects the edges of row n by their column, which is
  sound when every factor is a real number.

  The index words are 32-bit; a row word is compared as a natural number and a column word is reduced modulo D, so that
  both definitions are total. For words in [0, D) these are the words themselves.
-/
import Idealize.ShloMosaic.PureOps.Ideal
import Idealize.ShloMosaic.Lib.ValueIdx

noncomputable section

namespace Cert.Sparse

open Idealize.ShloMosaic Idealize.ShloMosaic.ValueIdx

/-- The number of edges. -/
abbrev E : ℕ := 1000000
/-- The number of features, in and out. -/
abbrev D : ℕ := 16384
/-- The batch. -/
abbrev B : ℕ := 256

abbrev SX : Shape := ⟨2, ![B, D]⟩
abbrev SW : Shape := ⟨2, ![D, D]⟩
abbrev SE : Shape := ⟨1, ![E]⟩
abbrev SD : Shape := ⟨1, ![D]⟩

/-- The column of x an edge reads: its column word reduced modulo D (the word itself when it is below D). -/
def colOf (cols : SE.Idx → BitVec 32) (e : Fin E) : Fin D :=
  ⟨(cols (ix1 e)).toNat % D, Nat.mod_lt _ (by decide)⟩

theorem colOf_val (cols : SE.Idx → BitVec 32) (e : Fin E) (h : (cols (ix1 e)).toNat < D) :
    (colOf cols e).val = (cols (ix1 e)).toNat := Nat.mod_eq_of_lt h

/-- The edges of row n. -/
def edgesOf (rows : SE.Idx → BitVec 32) (n : ℕ) : Finset (Fin E) :=
  Finset.univ.filter (fun e => (rows (ix1 e)).toNat = n)

/-- The edges at position (n, k). -/
def edgesAt (rows cols : SE.Idx → BitVec 32) (n k : ℕ) : Finset (Fin E) :=
  Finset.univ.filter (fun e => (rows (ix1 e)).toNat = n ∧ (cols (ix1 e)).toNat = k)

/-- The layer, edge by edge: y[b, n] = Σ_{e of row n} x[b, col e] · w e + bias n. -/
def spec (x : SX.Idx → EReal) (w : SE.Idx → EReal) (bias : SD.Idx → EReal) (rows cols : SE.Idx → BitVec 32) :
    SX.Idx → EReal :=
  fun i => (∑ e ∈ edgesOf rows (i 1).val, x (ix2 (i 0) (colOf cols e)) * w (ix1 e)) + bias (ix1 (i 1))

/-- The dense weight matrix: W[n, k] = Σ_{e at (n, k)} w e. -/
def dense (w : SE.Idx → EReal) (rows cols : SE.Idx → BitVec 32) : SW.Idx → EReal :=
  fun j => ∑ e ∈ edgesAt rows cols (j 0).val (j 1).val, w (ix1 e)

end Cert.Sparse

end
-- ==== Proof.LibLinear.lean ====
/-
  Finite sums of real numbers inside the extended reals, and the exchange of a weighted row sum with a matrix product.

  For rows x e (e in a finite set S) with real entries, real weights c e and a real column W:
    Σ k, (Σ e ∈ S, x e k · c e) · W k  =  Σ e ∈ S, (Σ k, x e k · W k) · c e.
  Both sides are the real number Σ e ∈ S, Σ k, x e k · c e · W k; on the extended reals the law needs every factor
  finite, because a product does not distribute over a sum that mixes infinities.
-/
import Idealize.ShloMosaic.PureOps.Ideal

noncomputable section

namespace Cert.LibLinear

/-- The extended real of a finite sum of reals is the sum of the extended reals. -/
theorem coe_sum {ι : Type} (S : Finset ι) (f : ι → ℝ) : ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

/-- A finite sum of extended reals that are all real is real. -/
theorem sum_real {ι : Type} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_sum]
  refine Finset.sum_congr rfl (fun i hi => ?_)
  obtain ⟨r, hr⟩ := hf i hi
  rw [hr, EReal.toReal_coe]

/-- The exchange law. -/
theorem exchange {E K : Type} [Fintype K] (S : Finset E) (x : E → K → EReal) (cw : E → EReal) (W : K → EReal)
    (hx : ∀ e k, ∃ r : ℝ, x e k = (r : EReal)) (hc : ∀ e, ∃ r : ℝ, cw e = (r : EReal)) (hW : ∀ k, ∃ r : ℝ, W k = (r : EReal)) :
    ∑ k : K, (∑ e ∈ S, x e k * cw e) * W k = ∑ e ∈ S, (∑ k : K, x e k * W k) * cw e := by
  -- real witnesses for every entry
  choose xr hxr using hx
  choose cr hcr using hc
  choose Wr hWr using hW
  -- the left side is the extended real of a real double sum
  have hL : ∑ k : K, (∑ e ∈ S, x e k * cw e) * W k
      = ((∑ k : K, (∑ e ∈ S, xr e k * cr e) * Wr k : ℝ) : EReal) := by
    rw [coe_sum]
    refine Finset.sum_congr rfl (fun k _ => ?_)
    rw [EReal.coe_mul, coe_sum, hWr]
    congr 1
    refine Finset.sum_congr rfl (fun e _ => ?_)
    rw [EReal.coe_mul, hxr, hcr]
  -- so is the right side
  have hR : ∑ e ∈ S, (∑ k : K, x e k * W k) * cw e
      = ((∑ e ∈ S, (∑ k : K, xr e k * Wr k) * cr e : ℝ) : EReal) := by
    rw [coe_sum]
    refine Finset.sum_congr rfl (fun e _ => ?_)
    rw [EReal.coe_mul, coe_sum, hcr]
    congr 1
    refine Finset.sum_congr rfl (fun k _ => ?_)
    rw [EReal.coe_mul, hxr, hWr]
  rw [hL, hR]
  congr 1
  -- over the reals: distribute, swap the two sums, and compare term by term
  simp only [Finset.sum_mul]
  rw [Finset.sum_comm]
  refine Finset.sum_congr rfl (fun e _ => Finset.sum_congr rfl (fun k _ => ?_))
  ring

end Cert.LibLinear

end
-- ==== Proof.SpecLaws.lean ====
/-
  Two laws of the sparse layer's sums.

  (1) A sum over the D = 16 · 1024 positions of a row can be taken tile by tile: 16 tiles of 1024 consecutive positions.
  (2) Row b of x against row n of the dense weight matrix is the edge sum of row n:
        Σ_k x[b, k] · (Σ_{e at (n, k)} w e)  =  Σ_{e of row n} x[b, col e] · w e.
      Over the reals: distribute x[b, k] over the edges at (n, k), where k is the edge's column, and collect the edges of
      row n by their column. On the extended reals the law needs every factor real.
-/
import proofs.«411924_j49538152792604_2_alg».proof.Proof.Spec
import proofs.«411924_j49538152792604_2_alg».proof.Proof.LibLinear

noncomputable section

namespace Cert.Sparse

open Idealize.ShloMosaic Idealize.ShloMosaic.ValueIdx

/-- A sum over the D positions, tile by tile. -/
theorem sum_tiles {M : Type*} [AddCommMonoid M] (f : Fin D → M) :
    ∑ j : Fin 16, ∑ kk : Fin 1024, f ⟨j.val * 1024 + kk.val, by have := j.isLt; have := kk.isLt; show _ < 16384; omega⟩
      = ∑ k : Fin D, f k := by
  -- the double sum is the sum over the pairs (j, kk) …
  rw [← Fintype.sum_prod_type']
  -- … and (j, kk) ↦ j · 1024 + kk is a bijection from the pairs onto the positions
  refine Fintype.sum_equiv (finProdFinEquiv : Fin 16 × Fin 1024 ≃ Fin (16 * 1024)) _ _ (fun p => ?_)
  congr 1
  apply Fin.ext
  show p.1.val * 1024 + p.2.val = p.2.val + 1024 * p.1.val
  omega

/-- Row b of x against row n of the dense weight is the edge sum of row n. -/
theorem dense_row_dot (x : SX.Idx → EReal) (w : SE.Idx → EReal) (rows cols : SE.Idx → BitVec 32)
    (hx : ∀ i, ∃ r : ℝ, x i = (r : EReal)) (hw : ∀ i, ∃ r : ℝ, w i = (r : EReal))
    (hc : ∀ i, (cols i).toNat < D) (b : Fin B) (n : Fin D) :
    ∑ k : Fin D, x (ix2 b k) * dense w rows cols (ix2 n k)
      = ∑ e ∈ edgesOf rows n.val, x (ix2 b (colOf cols e)) * w (ix1 e) := by
  -- real witnesses for every entry of x and of w
  choose xr hxr using hx
  choose wr hwr using hw
  -- the left side is the extended real of a real sum
  have hL : ∑ k : Fin D, x (ix2 b k) * dense w rows cols (ix2 n k)
      = ((∑ k : Fin D, xr (ix2 b k) * ∑ e ∈ edgesAt rows cols n.val k.val, wr (ix1 e) : ℝ) : EReal) := by
    rw [LibLinear.coe_sum]
    refine Finset.sum_congr rfl (fun k _ => ?_)
    have hd : dense w rows cols (ix2 n k) = ∑ e ∈ edgesAt rows cols n.val k.val, (wr (ix1 e) : EReal) :=
      Finset.sum_congr rfl (fun e _ => hwr _)
    rw [EReal.coe_mul, LibLinear.coe_sum, hxr, hd]
  -- so is the right side
  have hR : ∑ e ∈ edgesOf rows n.val, x (ix2 b (colOf cols e)) * w (ix1 e)
      = ((∑ e ∈ edgesOf rows n.val, xr (ix2 b (colOf cols e)) * wr (ix1 e) : ℝ) : EReal) := by
    rw [LibLinear.coe_sum]
    refine Finset.sum_congr rfl (fun e _ => ?_)
    rw [EReal.coe_mul, hxr, hwr]
  rw [hL, hR]
  refine congrArg Real.toEReal ?_
  -- over the reals: distribute x[b, k] over the edges at (n, k) and split the edges of row n by their column
  simp only [Finset.mul_sum]
  rw [← Finset.sum_fiberwise (edgesOf rows n.val) (colOf cols)]
  refine Finset.sum_congr rfl (fun k _ => ?_)
  -- the edges at (n, k) are the edges of row n whose column is k
  have hset : edgesAt rows cols n.val k.val = (edgesOf rows n.val).filter (fun e => colOf cols e = k) := by
    ext e
    simp only [edgesAt, edgesOf, Finset.mem_filter, Finset.mem_univ, true_and]
    constructor
    · rintro ⟨h1, h2⟩
      exact ⟨h1, Fin.ext (by rw [colOf_val cols e (hc _)]; exact h2)⟩
    · rintro ⟨h1, h2⟩
      exact ⟨h1, by rw [← colOf_val cols e (hc _), h2]⟩
  rw [hset]
  refine Finset.sum_congr rfl (fun e he => ?_)
  rw [(Finset.mem_filter.mp he).2]

end Cert.Sparse

end
-- ==== Proof.LibPointScatter.lean ====
/-
  Accumulating point scatters read at an index.

  A table of N rows and C columns is accumulated into at positions named by an [n × 2] array of words: update e lands on
  the position (r, c) whose coordinates are the two words of row e of that array, read signed and NOT clamped, and is
  dropped when that is no position of the table. Entry (r, c) of the result is the operand's entry plus the sum of the
  updates that land on (r, c).
-/
import Idealize.ShloMosaic.PureOps.Ideal
import Idealize.ShloMosaic.PureOps.Ideal.Laws
import Idealize.ShloMosaic.Lib.ValueIdx
import Idealize.ShloMosaic.Lib.ValueIdxRank1

noncomputable section

namespace Cert.LibPointScatter

open Idealize.ShloMosaic Idealize.ShloMosaic.ValueIdx

/-- Where update e of an accumulating point scatter lands: on (r, c) exactly when the two words of row e of the index
    array, read signed, are r and c. The four hypotheses are the printed dimension numbers, each closed by `rfl` at a
    use. -/
theorem scatter_point_resultIdx {N C n w : ℕ} (d : ScatterDims ⟨2, ![N, C]⟩ ⟨2, ![n, 2]⟩ ⟨1, ![n]⟩)
    (huw : d.updateWindowDims = []) (hiw : d.insertedWindowDims = [0, 1]) (hsd : d.scatterDimsToOperandDims = [0, 1])
    (hivd : d.indexVectorDim = 1) (idx : IVec ⟨2, ![n, 2]⟩ w) (e : Fin n) (r : Fin N) (c : Fin C) :
    d.resultIdx? (ix1 e) idx = some (ix2 r c)
      ↔ (idx (ix2 e (0 : Fin 2))).toInt = (r.val : ℤ) ∧ (idx (ix2 e (1 : Fin 2))).toInt = (c.val : ℤ) := by
  -- the update's one axis is a scatter axis
  have hus : ∀ X ∈ d.uScatter, X = (0 : Fin 1) := fun X _ => Subsingleton.elim _ _
  have e0 : ∀ X : Fin 1, X = 0 → ((ix1 e : (⟨1, ![n]⟩ : Shape).Idx) X).val = e.val := by rintro _ rfl; rfl
  have hmem_sKept : ∀ a : Fin 2, a ∈ d.sKept ↔ a ∉ d.insertedWindowDims := fun a => by
    simp [ScatterDims.sKept, Shape.kept, List.mem_filter, List.mem_finRange]
  -- the start on each axis: the index word of that axis, read signed
  have hs0 : d.start (ix1 e) idx 0 = (idx (ix2 e (0 : Fin 2))).toInt := by
    have hm : (0 : Fin 2) ∈ d.scatterDimsToOperandDims := by rw [hsd]; simp
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix1 e) idx 1 = (idx (ix2 e (1 : Fin 2))).toInt := by
    have hm : (1 : Fin 2) ∈ d.scatterDimsToOperandDims := by rw [hsd]; simp
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (1 : Fin 2) d.scatterDimsToOperandDims = 1
      rw [hsd]; rfl
  -- no window: both axes of the table are inserted
  have hw0 : d.window (ix1 e) 0 = 0 := by
    have hk : (0 : Fin 2) ∉ d.sKept := by rw [hmem_sKept, hiw]; simp
    unfold ScatterDims.window
    rw [dif_neg hk]
  have hw1 : d.window (ix1 e) 1 = 0 := by
    have hk : (1 : Fin 2) ∉ d.sKept := by rw [hmem_sKept, hiw]; simp
    unfold ScatterDims.window
    rw [dif_neg hk]
  have hr := r.isLt
  have hc := c.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      have hin1 := (hin 1).1
      rw [hs0, hw0] at hin0
      rw [hs1, hw1] at hin1
      change ((idx (ix2 e (0 : Fin 2))).toInt + ((0 : ℕ) : ℤ)).toNat = r.val at h0
      change ((idx (ix2 e (1 : Fin 2))).toInt + ((0 : ℕ) : ℤ)).toNat = c.val at h1
      refine ⟨by omega, by omega⟩
    · exact absurd h (by simp)
  · rintro ⟨hi0, hi1⟩
    have hin : ∀ a, 0 ≤ d.start (ix1 e) idx a + d.window (ix1 e) a ∧
        d.start (ix1 e) idx a + (d.window (ix1 e) a : ℤ) < ((⟨2, ![N, C]⟩ : Shape).size a : ℤ) := by
      intro a
      match a with
      | ⟨0, _⟩ =>
        show 0 ≤ d.start (ix1 e) idx 0 + (d.window (ix1 e) 0 : ℤ) ∧ d.start (ix1 e) idx 0 + (d.window (ix1 e) 0 : ℤ) < (N : ℤ)
        rw [hs0, hw0, hi0]; omega
      | ⟨1, _⟩ =>
        show 0 ≤ d.start (ix1 e) idx 1 + (d.window (ix1 e) 1 : ℤ) ∧ d.start (ix1 e) idx 1 + (d.window (ix1 e) 1 : ℤ) < (C : ℤ)
        rw [hs1, hw1, hi1]; omega
    rw [dif_pos hin]
    congr 1
    funext a
    apply Fin.ext
    match a with
    | ⟨0, _⟩ =>
      show (d.start (ix1 e) idx 0 + (d.window (ix1 e) 0 : ℤ)).toNat = r.val
      rw [hs0, hw0, hi0]; omega
    | ⟨1, _⟩ =>
      show (d.start (ix1 e) idx 1 + (d.window (ix1 e) 1 : ℤ)).toNat = c.val
      rw [hs1, hw1, hi1]; omega

/-- The accumulating point scatter at the extended reals, read at (r, c): the operand's entry plus the sum of the updates
    whose two index words, read signed, are r and c. -/
theorem scatterAdd_point {φ : FTy} {N C n w : ℕ} (d : ScatterDims ⟨2, ![N, C]⟩ ⟨2, ![n, 2]⟩ ⟨1, ![n]⟩)
    (huw : d.updateWindowDims = []) (hiw : d.insertedWindowDims = [0, 1]) (hsd : d.scatterDimsToOperandDims = [0, 1])
    (hivd : d.indexVectorDim = 1) (x : FVec Ideal ⟨2, ![N, C]⟩ φ) (idx : IVec ⟨2, ![n, 2]⟩ w)
    (upd : FVec Ideal ⟨1, ![n]⟩ φ) (r : Fin N) (c : Fin C) :
    Host.scatterAdd d x idx upd (ix2 r c)
      = x (ix2 r c) + ∑ e ∈ Finset.univ.filter (fun e : Fin n =>
          (idx (ix2 e (0 : Fin 2))).toInt = (r.val : ℤ) ∧ (idx (ix2 e (1 : Fin 2))).toInt = (c.val : ℤ)), upd (ix1 e) := by
  show x (ix2 r c) + ∑ j ∈ Finset.univ.filter (fun j => d.resultIdx? j idx = some (ix2 r c)), upd j = _
  congr 1
  rw [Finset.sum_filter, Finset.sum_filter, ← Equiv.sum_comp (idxEquiv1 (n := n)).symm]
  refine Finset.sum_congr rfl fun a _ => ?_
  show (if d.resultIdx? (ix1 a) idx = some (ix2 r c) then upd (ix1 a) else 0) = _
  simp only [scatter_point_resultIdx d huw hiw hsd hivd]

end Cert.LibPointScatter

end
-- ==== Proof.DenseWeight.lean ====
/-
  The arrays the kernel's region finds: the dense weight matrix and the bias as a row.

  Before the region the host builds W by adding each edge's weight into a zero [D × D] array at (rows e, cols e) — a
  negative index word is first raised by D, and an edge whose position, read signed, is outside the array is dropped; for
  words in [0, D) the position is the words themselves — so W[n, k] = 0 + Σ_{e at (n, k)} w e; and it lays the bias out
  as a [1 × D] row.
-/
import proofs.«411924_j49538152792604_2_alg».proof.Proof.Gen.KernelIdeal.Frame
import proofs.«411924_j49538152792604_2_alg».proof.Proof.Spec
import proofs.«411924_j49538152792604_2_alg».proof.Proof.LibPointScatter
import Idealize.ShloMosaic.Lib.ValueLayout
import Idealize.ShloMosaic.Lib.IdealHost
import Idealize.ShloMosaic.Lib.StableHlo.Predicate

noncomputable section

namespace Cert.KernelIdeal.HostStage

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- A word below D is not negative, so the host's wrap of negative index words leaves it as it is. -/
theorem wrap_eq (v : S1000000.Idx → BitVec 32) (hv : ∀ i, (v i).toNat < 16384) :
    select (cmpi .slt v (broadcastInDim S1000000 ![] bcast_S_S1000000 (constantI S_ 32 0#32)))
        (addi v (broadcastInDim S1000000 ![] bcast_S_S1000000 (constantI S_ 32 16384#32))) v = v := by
  funext i
  have h0 : IntOp.cmpi .slt (v i) 0#32 = 0#1 := by
    have hi := hv i
    have hlt : ¬ (v i).toInt < (0#32 : BitVec 32).toInt := by
      rw [StableHlo.Predicate.toInt_eq_toNat_of_lt (a := v i) (by omega)]
      show ¬ ((v i).toNat : ℤ) < 0
      omega
    show BitVec.ofBool ((v i).slt 0#32) = 0#1
    rw [show (v i).slt 0#32 = false from by rw [← Bool.not_eq_true, BitVec.slt_iff_toInt_lt]; exact hlt]
    rfl
  show Scalar.select (IntOp.cmpi .slt (v i) (broadcastInDim S1000000 ![] bcast_S_S1000000 (constantI S_ 32 0#32) i)) _ (v i) = v i
  rw [broadcastInDim_scalar_apply, constantI_apply, h0, select_zero]

/-- The index array, two columns side by side, read at (e, 0): the first column. -/
theorem idx_col0 (r k : S1000000.Idx → BitVec 32) (e : Fin 1000000) :
    concatenate S1000000x2 1
        [⟨S1000000x1, broadcastInDim S1000000x1 ![0] bcast_S1000000_S1000000x1_0 r⟩,
         ⟨S1000000x1, broadcastInDim S1000000x1 ![0] bcast_S1000000_S1000000x1_0 k⟩]
        concatenates_S1000000x1_S1000000x1_S1000000x2_d1 (ix2 e (0 : Fin 2)) = r (ix1 e) := by
  refine (concatenate_pair_apply_left (t := S1000000x2) (s₁ := S1000000x1) (s₂ := S1000000x1) (1 : Fin 2) _ _
    concatenates_S1000000x1_S1000000x1_S1000000x2_d1 (ix2 e (0 : Fin 2)) (rfl : S1000000x1.rank = S1000000x2.rank)
    (ix2 e (0 : Fin 1)) (fun b => match b with | ⟨0, _⟩ => rfl | ⟨1, _⟩ => rfl)).trans ?_
  exact broadcastInDim_apply _ _ _ _ (ix1 e) (fun a => match a with | ⟨0, _⟩ => rfl)

/-- The same array at (e, 1): the second column. -/
theorem idx_col1 (r k : S1000000.Idx → BitVec 32) (e : Fin 1000000) :
    concatenate S1000000x2 1
        [⟨S1000000x1, broadcastInDim S1000000x1 ![0] bcast_S1000000_S1000000x1_0 r⟩,
         ⟨S1000000x1, broadcastInDim S1000000x1 ![0] bcast_S1000000_S1000000x1_0 k⟩]
        concatenates_S1000000x1_S1000000x1_S1000000x2_d1 (ix2 e (1 : Fin 2)) = k (ix1 e) := by
  refine (concatenate_pair_apply_right (t := S1000000x2) (s₁ := S1000000x1) (s₂ := S1000000x1) (1 : Fin 2) _ _
    concatenates_S1000000x1_S1000000x1_S1000000x2_d1 (ix2 e (1 : Fin 2)) (rfl : S1000000x1.rank = S1000000x2.rank)
    (rfl : S1000000x1.rank = S1000000x2.rank)
    (ix2 e (0 : Fin 1)) (fun b => match b with | ⟨0, _⟩ => fun _ => rfl | ⟨1, _⟩ => fun h => absurd rfl h) rfl).trans ?_
  exact broadcastInDim_apply _ _ _ _ (ix1 e) (fun a => match a with | ⟨0, _⟩ => rfl)

set_option maxHeartbeats 4000000 in
/-- The weight array the region finds is the dense weight matrix of the edges, for index words in [0, D). -/
theorem V_wdense (c : Dev nD)
    (hr : ∀ i, (m ((c : Thread nD τ).loc main_arg3) i).toNat < 16384)
    (hc : ∀ i, (m ((c : Thread nD τ).loc main_arg4) i).toNat < 16384) :
    (V m c main_call0_v14 : S16384x16384.Idx → EReal)
      = Cert.Sparse.dense (m ((c : Thread nD τ).loc main_arg1)) (m ((c : Thread nD τ).loc main_arg3)) (m ((c : Thread nD τ).loc main_arg4)) := by
  -- the host operations that write the array, composed
  have e : (V m c main_call0_v14 : S16384x16384.Idx → EReal)
      = Host.scatterAdd scatter_S16384x16384_S1000000x2_S1000000_n_01_01_1
          (broadcastInDim S16384x16384 ![] bcast_S_S16384x16384 (constant (F := Ideal) S_ .f32 0x00000000#32))
          (concatenate S1000000x2 1
            [⟨S1000000x1, broadcastInDim S1000000x1 ![0] bcast_S1000000_S1000000x1_0
                (select (cmpi .slt (m ((c : Thread nD τ).loc main_arg3)) (broadcastInDim S1000000 ![] bcast_S_S1000000 (constantI S_ 32 0#32)))
                  (addi (m ((c : Thread nD τ).loc main_arg3)) (broadcastInDim S1000000 ![] bcast_S_S1000000 (constantI S_ 32 16384#32)))
                  (m ((c : Thread nD τ).loc main_arg3)))⟩,
             ⟨S1000000x1, broadcastInDim S1000000x1 ![0] bcast_S1000000_S1000000x1_0
                (select (cmpi .slt (m ((c : Thread nD τ).loc main_arg4)) (broadcastInDim S1000000 ![] bcast_S_S1000000 (constantI S_ 32 0#32)))
                  (addi (m ((c : Thread nD τ).loc main_arg4)) (broadcastInDim S1000000 ![] bcast_S_S1000000 (constantI S_ 32 16384#32)))
                  (m ((c : Thread nD τ).loc main_arg4)))⟩]
            concatenates_S1000000x1_S1000000x1_S1000000x2_d1)
          (m ((c : Thread nD τ).loc main_arg1)) := by
    dsimp only [V, hostOps0]
    after_results
    rfl
  rw [e, wrap_eq _ hr, wrap_eq _ hc]
  funext j
  obtain ⟨r, k, rfl⟩ : ∃ r k, j = ix2 r k := ⟨j 0, j 1, eq_ix2 j⟩
  refine (Cert.LibPointScatter.scatterAdd_point (φ := .f32) scatter_S16384x16384_S1000000x2_S1000000_n_01_01_1 rfl rfl rfl rfl
    _ _ _ r k).trans ?_
  rw [broadcastInDim_scalar_apply, constant_apply, Ideal.ofBits_zero_f32, zero_add]
  unfold Cert.Sparse.dense Cert.Sparse.edgesAt
  refine Finset.sum_congr (Finset.filter_congr fun a _ => ?_) (fun _ _ => rfl)
  have hra := hr (ix1 a)
  have hca := hc (ix1 a)
  rw [idx_col0, idx_col1, StableHlo.Predicate.toInt_eq_toNat_of_lt (by omega), StableHlo.Predicate.toInt_eq_toNat_of_lt (by omega)]
  show ((m ((c : Thread nD τ).loc main_arg3) (ix1 a)).toNat : ℤ) = (r.val : ℤ) ∧ ((m ((c : Thread nD τ).loc main_arg4) (ix1 a)).toNat : ℤ) = (k.val : ℤ)
    ↔ (m ((c : Thread nD τ).loc main_arg3) (ix1 a)).toNat = r.val ∧ (m ((c : Thread nD τ).loc main_arg4) (ix1 a)).toNat = k.val
  omega

/-- The bias row the region finds, at column q, is the bias at q. -/
theorem V_bias_row (c : Dev nD) (q : Fin 16384) :
    (V m c main_call0_v15 : S1x16384.Idx → EReal) (ix2 (0 : Fin 1) q) = m ((c : Thread nD τ).loc main_arg2) (ix1 q) := by
  -- the one host operation that writes the row: the bias reshaped
  have e : (V m c main_call0_v15 : S1x16384.Idx → EReal)
      = shapeCast S1x16384 (m ((c : Thread nD τ).loc main_arg2)) shapeCasts_S16384_S1x16384 := by
    dsimp only [V, hostOps0]
    after_results
    rfl
  rw [e]
  refine shapeCast_apply _ _ (ix2 (0 : Fin 1) q) (ix1 q) ?_
  rw [Shape.rowMajor_val_two, Shape.rowMajor_val_one]
  show q.val = (0 : ℕ) * 16384 + q.val
  omega

end Cert.KernelIdeal.HostStage

end
-- ==== Proof.KernelResult.lean ====
/-
  The kernel's result array.

  Only the points with k = 15 write an output tile back. There the tile's entry (b, q) is the accumulator's entry plus the
  bias: with n the output feature n·2048 + q of the point,

      Σ_{s < 16} tile(16·(t / 16) + s)(b, q) + bias n  =  Σ_k x[b, k] · W[n, k] + bias n

  (the 16 tiles of 1024 columns are all D columns), and with W the dense weight matrix of the edges this is the edge sum
  of row n plus bias n. The eight written tiles have all 256 rows and the columns n·2048 … n·2048 + 2047, n = 0 … 7: every
  entry of the result lies in one of them.
-/
import proofs.«411924_j49538152792604_2_alg».proof.Proof.Accumulate
import proofs.«411924_j49538152792604_2_alg».proof.Proof.SpecLaws
import proofs.«411924_j49538152792604_2_alg».proof.Proof.DenseWeight
import proofs.«411924_j49538152792604_2_alg».proof.Proof.Gen.KernelIdeal.Value

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tiles Cert.KernelIdeal.Accumulate

variable (m : (ℓ : Loc nD τ sig) → Buf (Elt Ideal) ℓ) (ρ : Dev nD → PrngReg)

/-- Row b of an x array against row n of a weight array. -/
def rowDot (X : S256x16384.Idx → EReal) (W : S16384x16384.Idx → EReal) (b : Fin 256) (n : Fin 16384) : EReal :=
  ∑ k : Fin 16384, X (ix2 b k) * W (ix2 n k)

/-- The sixteen tiles of one n are the whole row: Σ_k x[b, k] · W[n, k]. -/
theorem row_total (c : Dev nD) (t : Fin cfg0.N) (b : Fin 256) (q : Fin 2048) :
    ∑ s ∈ Finset.range 16, tile m c (16 * (t.val / 16) + s) b q = rowDot (xArr m c) (wArr m c) b (rowPos t q) := by
  unfold rowDot
  rw [Finset.sum_range, ← Cert.Sparse.sum_tiles (fun k => xArr m c (ix2 b k) * wArr m c (ix2 (rowPos t q) k))]
  refine Finset.sum_congr rfl fun j _ => ?_
  unfold tile
  refine Finset.sum_congr rfl fun kk _ => ?_
  have hN : cfg0.N = 128 := N_0
  have ec : colAt (16 * (t.val / 16) + j.val) kk
      = ⟨j.val * 1024 + kk.val, by have := j.isLt; have := kk.isLt; show _ < 16384; omega⟩ :=
    Fin.ext (by
      show (16 * (t.val / 16) + j.val) % 16 * 1024 + kk.val = j.val * 1024 + kk.val
      have := j.isLt
      omega)
  have er : rowAt (16 * (t.val / 16) + j.val) q = rowPos t q :=
    Fin.ext (by
      show (16 * (t.val / 16) + j.val) / 16 % 8 * 2048 + q.val = t.val / 16 * 2048 + q.val
      have := j.isLt
      have := t.isLt
      omega)
  rw [ec, er]

/-- The layer's result at (b, n), spelled out. -/
theorem spec_at (x : Cert.Sparse.SX.Idx → EReal) (w : Cert.Sparse.SE.Idx → EReal) (bias : Cert.Sparse.SD.Idx → EReal)
    (rows cols : Cert.Sparse.SE.Idx → BitVec 32) (b : Fin 256) (n : Fin 16384) :
    Cert.Sparse.spec x w bias rows cols (ix2 b n)
      = (∑ e ∈ Cert.Sparse.edgesOf rows n.val, x (ix2 b (Cert.Sparse.colOf cols e)) * w (ix1 e)) + bias (ix1 n) := rfl

/-- The hypotheses on the arguments of device c: x and the weights hold real numbers, the index words are in [0, D). -/
structure Dom (c : Dev nD) : Prop where
  hx : ∀ i, ∃ r : ℝ, m ((c : Thread nD τ).loc main_arg0) i = (r : EReal)
  hw : ∀ i, ∃ r : ℝ, m ((c : Thread nD τ).loc main_arg1) i = (r : EReal)
  hr : ∀ i, (m ((c : Thread nD τ).loc main_arg3) i).toNat < 16384
  hc : ∀ i, (m ((c : Thread nD τ).loc main_arg4) i).toNat < 16384

/-- The layer's result on device c's arguments. -/
abbrev out (c : Dev nD) : S256x16384.Idx → EReal :=
  Cert.Sparse.spec (m ((c : Thread nD τ).loc main_arg0)) (m ((c : Thread nD τ).loc main_arg1)) (m ((c : Thread nD τ).loc main_arg2))
    (m ((c : Thread nD τ).loc main_arg3)) (m ((c : Thread nD τ).loc main_arg4))

/-- An output tile lies inside the result array: nothing of it is cut off. -/
theorem otile_uncut (X : S256x2048.Idx → EReal) (t : Fin cfg0.N) (b : Fin 256) (q : Fin 2048) :
    (cfg0.win 3).cut (grid0.coords t) X (ix2 b q) = X (ix2 b q) := rfl

/-- An array the shape of the result, read through point t's output tile at (b, q), is the array at (b, n·2048 + q). -/
theorem otile_read (G : S256x16384.Idx → EReal) (t : Fin cfg0.N) (b : Fin 256) (q : Fin 2048) :
    ((cfg0.win 3).blk t).view.read (Elt Ideal) G (ix2 b q) = G (ix2 b (rowPos t q)) := by
  show G (((cfg0.win 3).blk t).view.emb (ix2 b q)) = _
  rw [otile_emb t b q]

/-- What a point with k = 15 writes back is its tile of the layer's result. -/
theorem flushed_eq (c : Dev nD) (H : Dom m c) (t : Fin cfg0.N) (hf : (cfg0.win 3).flush t = true) :
    (dats m 0 c).flushed 3 t = ((cfg0.win 3).blk t).view.read (Elt Ideal) (out m c) := by
  have h15 : t.val % 16 = 15 := (flush0_3 t).mp hf
  have h0 : ¬t.val % 16 = 0 := by omega
  -- the accumulator after this point, by its closed form
  have hsc : (outsAt0 m c t.val t.isLt).2
      = k0_pay2 (iblk m c 0 t) (iblk m c 1 t) (outsAt0 m c (t.val - 1) (Nat.lt_of_le_of_lt (Nat.sub_le _ _) t.isLt)).2 := by
    rw [outsAt0_C m c t h0 h15]
    dsimp only
    rw [Pieces.scratch_last]
  rw [Cert.KernelIdeal.Value.flushed3_C m c t h0 h15, Pieces.output_last, ← hsc]
  funext j
  obtain ⟨b, q, rfl⟩ : ∃ (b : Fin 256) (q : Fin 2048), j = ix2 b q := ⟨j 0, j 1, eq_ix2 j⟩
  refine (otile_uncut _ t b q).trans ?_
  refine Eq.trans ?_ (otile_read (out m c) t b q).symm
  rw [Payload.result_apply, btile_apply m c t q, HostStage.V_bias_row m c (rowPos t q)]
  have hacc := acc_eq m c t.val t.isLt b q
  rw [h15] at hacc
  rw [hacc, row_total m c t b q]
  show _ = Cert.Sparse.spec _ _ _ _ _ (ix2 b (rowPos t q))
  rw [spec_at]
  have hX : xArr m c = m ((c : Thread nD τ).loc main_arg0) := V_main_arg0 m c
  have hW : wArr m c = Cert.Sparse.dense (m ((c : Thread nD τ).loc main_arg1)) (m ((c : Thread nD τ).loc main_arg3))
      (m ((c : Thread nD τ).loc main_arg4)) := HostStage.V_wdense m c H.hr H.hc
  -- the row product depends on the two arrays only: put the arguments' x and the dense weight in their places
  have hrow : rowDot (xArr m c) (wArr m c) b (rowPos t q)
      = rowDot (m ((c : Thread nD τ).loc main_arg0)) (Cert.Sparse.dense (m ((c : Thread nD τ).loc main_arg1))
          (m ((c : Thread nD τ).loc main_arg3)) (m ((c : Thread nD τ).loc main_arg4))) b (rowPos t q) :=
    congrArg₂ (fun X W => rowDot X W b (rowPos t q)) hX hW
  have hsum : rowDot (m ((c : Thread nD τ).loc main_arg0)) (Cert.Sparse.dense (m ((c : Thread nD τ).loc main_arg1))
          (m ((c : Thread nD τ).loc main_arg3)) (m ((c : Thread nD τ).loc main_arg4))) b (rowPos t q) = _ :=
    Cert.Sparse.dense_row_dot (m ((c : Thread nD τ).loc main_arg0)) (m ((c : Thread nD τ).loc main_arg1))
      (m ((c : Thread nD τ).loc main_arg3)) (m ((c : Thread nD τ).loc main_arg4)) H.hx H.hw H.hc b (rowPos t q)
  rw [hrow, hsum]

/-- An entry of the result is in point t's output tile when its column is among the tile's columns. -/
theorem mem_otile (t : Fin cfg0.N) (i : S256x16384.Idx) :
    i ∈ ((cfg0.win 3).blk t).view.set ↔
      ∀ a : Fin 2, win0_3.index t a * S256x2048.size a ≤ (i a).val ∧ (i a).val < win0_3.index t a * S256x2048.size a + S256x2048.size a := by
  show i ∈ ((View.whole main_v0).slice (win0_3.rect t)).set ↔ _
  rw [View.set_slice_whole, Rect.mem_set_unit]
  exact Iff.rfl

/-- Every entry of the result is in the tile some point with k = 15 writes back. -/
theorem cover (i : S256x16384.Idx) :
    ∃ t : Fin cfg0.N, (cfg0.win 3).flush t = true ∧ i ∈ ((cfg0.win 3).blk t).view.set := by
  have hN : cfg0.N = 128 := N_0
  have hi0 : (i 0).val < 256 := (i 0).isLt
  have hi1 : (i 1).val < 16384 := (i 1).isLt
  refine ⟨⟨16 * ((i 1).val / 2048) + 15, by omega⟩, (flush0_3 _).mpr (by dsimp only; omega), ?_⟩
  obtain ⟨-, -, -, -, -, -, e0, e1⟩ := idx_facts ⟨16 * ((i 1).val / 2048) + 15, by omega⟩
  dsimp only at e1
  rw [mem_otile]
  intro a
  match a with
  | ⟨0, _⟩ =>
    show win0_3.index _ (0 : Fin 2) * 256 ≤ (i 0).val ∧ (i 0).val < win0_3.index _ (0 : Fin 2) * 256 + 256
    omega
  | ⟨1, _⟩ =>
    show win0_3.index _ (1 : Fin 2) * 2048 ≤ (i 1).val ∧ (i 1).val < win0_3.index _ (1 : Fin 2) * 2048 + 2048
    omega

/-- The result array after the run is the layer's result. -/
theorem final (c : Dev nD) (H : Dom m c) : (dats m 0 c).arrAt 3 cfg0.N = out m c :=
  (dats m 0 c).arrAt_eq_of_cover 3 (out m c) (fun t hf => flushed_eq m c H t hf) cover

/-- The kernel's run: it ends with the result array at the layer's result and the arguments unchanged. -/
theorem run (H : ∀ c, Dom m c) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (H c)), (h c).2⟩)
    (Cert.KernelIdeal.Value.run_blocks m ρ)

end Cert.KernelIdeal.Result

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.LibColGather.lean ====
/-
  Column gathers read at an index.

  A table of B rows and N columns is read at the columns named by a column of n start indices (an [n × 1] array of
  words): column p of the result is the table's column at start index p, read signed and clamped into [0, N − 1]. Entry
  (q, p) of the result is therefore the table's entry (q, clamped start index p). This is the transposed companion of the
  row gather, whose result row p is a table row.
-/
import Idealize.ShloMosaic.PureOps.Ideal
import Idealize.ShloMosaic.Lib.ValueIdx
import Idealize.ShloMosaic.Lib.StableHlo.Predicate

noncomputable section

namespace Cert.LibColGather

open Idealize.ShloMosaic Idealize.ShloMosaic.ValueIdx Idealize.ShloMosaic.StableHlo.Predicate

/-- The table column a start index names when it is read: the word read signed, clamped into [0, N − 1]. -/
def colAt {N n w : ℕ} (hN : 0 < N) (idx : IVec ⟨2, ![n, 1]⟩ w) (p : Fin n) : Fin N :=
  ⟨min (idx (ixP p)).toInt.toNat (N - 1), by omega⟩

theorem colAt_val {N n w : ℕ} (hN : 0 < N) (idx : IVec ⟨2, ![n, 1]⟩ w) (p : Fin n) :
    (colAt hN idx p).val = min (idx (ixP p)).toInt.toNat (N - 1) := rfl

/-- A column gather read at (q, p): the table at (q, column of start index p). The five hypotheses are the printed
    dimension numbers, each closed by `rfl` at a use. -/
theorem gather_cols {α : Type} {B N n w : ℕ} (d : GatherDims ⟨2, ![B, N]⟩ ⟨2, ![n, 1]⟩ ⟨2, ![B, n]⟩)
    (hoff : d.offsetDims = [0]) (hcoll : d.collapsedSliceDims = [1]) (hob : d.operandBatchingDims = [])
    (hsim : d.startIndexMap = [1]) (hivd : d.indexVectorDim = 1)
    (x : (⟨2, ![B, N]⟩ : Shape).Idx → α) (idx : IVec ⟨2, ![n, 1]⟩ w) (hN : 0 < N) (q : Fin B) (p : Fin n) :
    Host.gather d x idx (ix2 q p) = x (ix2 q (colAt hN idx p)) := by
  unfold Host.gather
  congr 1
  funext a
  apply Fin.ext
  have hnb : ∀ a : Fin 2, a ∉ d.operandBatchingDims := fun a => by rw [hob]; exact List.not_mem_nil
  -- the result's batch axes are axis 1 alone, its offset axes axis 0 alone
  have hbd : ∀ X ∈ d.batchDims, X = (1 : Fin 2) := by
    intro X hX
    have : d.batchDims = [(1 : Fin 2)] := by unfold GatherDims.batchDims; rw [hoff]; rfl
    rw [this] at hX; exact List.mem_singleton.mp hX
  have hod : ∀ X ∈ d.offsetDims, X = (0 : Fin 2) := by
    intro X hX; rw [hoff] at hX; exact List.mem_singleton.mp hX
  have e0 : ∀ X : Fin 2, X = 0 → ((ix2 q p : (⟨2, ![B, n]⟩ : Shape).Idx) X).val = q.val := by rintro _ rfl; rfl
  have e1 : ∀ X : Fin 2, X = 1 → ((ix2 q p : (⟨2, ![B, n]⟩ : Shape).Idx) X).val = p.val := by rintro _ rfl; rfl
  match a with
  | ⟨0, _⟩ =>
    -- axis 0 is the one offset axis: no start, and the offset coordinate is the result's row
    have hk : (0 : Fin 2) ∈ d.sKept := by rw [GatherDims.mem_sKept, hcoll, hob]; simp
    have hm : (0 : Fin 2) ∉ d.startIndexMap := by rw [hsim]; simp
    show d.start (ix2 q p) idx 0 + d.batchCoord (ix2 q p) 0 + d.offCoord (ix2 q p) 0 = q.val
    rw [GatherDims.batchCoord_eq_zero _ _ _ (hnb 0)]
    unfold GatherDims.start GatherDims.offCoord
    rw [dif_neg hm, dif_pos hk]
    simp only [Nat.zero_add, Nat.add_zero]
    exact e0 _ (hod _ (List.getElem_mem _))
  | ⟨1, _⟩ =>
    -- axis 1 is collapsed and start-indexed: its slice has size 1, so the start is clamped into [0, N − 1]
    have hsl : d.sliceSizes 1 = 1 := d.slice_collapsed 1 (by rw [hcoll]; exact List.mem_singleton.mpr rfl)
    have hk : (1 : Fin 2) ∉ d.sKept := by rw [GatherDims.mem_sKept, hcoll]; simp
    have hm : (1 : Fin 2) ∈ d.startIndexMap := by rw [hsim]; exact List.mem_singleton.mpr rfl
    show d.start (ix2 q p) idx 1 + d.batchCoord (ix2 q p) 1 + d.offCoord (ix2 q p) 1 = min (idx (ixP p)).toInt.toNat (N - 1)
    rw [GatherDims.batchCoord_eq_zero _ _ _ (hnb 1), GatherDims.offCoord_eq_zero _ _ _ hk]
    unfold GatherDims.start
    rw [dif_pos hm]
    show min _ (N - d.sliceSizes 1) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e1 _ (hbd _ (List.getElem_mem _))
    | ⟨1, _⟩ =>
      unfold GatherDims.siIdx
      rw [dif_pos (by rw [hivd])]
      show List.idxOf (1 : Fin 2) d.startIndexMap = 0
      rw [hsim]; simp

end Cert.LibColGather

end
-- ==== Proof.RefEdges.lean ====
/-
  The reference computes the edge sum.

  The reference gathers, for every edge e, column (cols e) of x — a negative column word is first raised by D, and the
  gather clamps the word into [0, D − 1]; for words in [0, D) neither changes it —, multiplies by the edge's weight, and
  adds row e of the products into row (rows e) of a zero [D × B] array, dropping an edge whose row word, read signed, is no
  row; it then transposes and adds the bias. Entry (b, n) is therefore 0 + Σ_{e of row n} x[b, cols e] · w e, plus bias n.
-/
import proofs.«411924_j49538152792604_2_alg».proof.Proof.Gen.ReferenceIdeal.Read
import proofs.«411924_j49538152792604_2_alg».proof.Proof.Spec
import proofs.«411924_j49538152792604_2_alg».proof.Proof.LibRows
import proofs.«411924_j49538152792604_2_alg».proof.Proof.LibColGather
import Idealize.ShloMosaic.PureOps.Ideal.Laws
import Idealize.ShloMosaic.Lib.StableHlo.Predicate

noncomputable section

namespace Cert.ReferenceIdeal.RefValue

open Idealize.ShloMosaic Idealize.ShloMosaic.ValueIdx Cert.ReferenceIdeal Cert.ReferenceIdeal.Read

section Reads

open Idealize.ShloMosaic.StableHlo.Predicate

/-- The start index of edge e is its column word: the word is not negative, so it is not raised. -/
theorem start_word (cols : IVec S1000000 32) (hc : ∀ i, (cols i).toNat < 16384) (i : S1000000.Idx) :
    val_main_v4 (F := Ideal) cols i = cols i := by
  rw [val_main_v4_apply, val_main_v1_apply, val_main_v0_apply, val_main_c_apply]
  unfold Scalar.select
  rw [if_neg]
  intro h
  have h' := (slt_iff_toNat (a := cols i) (b := 0#32) (by have := hc i; omega) (by decide)).mp h
  exact absurd h' (by simp)

/-- The column the gather reads for edge e: the clamp leaves a word in [0, D) as it is. -/
theorem col_read (cols : IVec S1000000 32) (hc : ∀ i, (cols i).toNat < 16384) (e : Fin 1000000) :
    Cert.LibColGather.colAt (N := 16384) (by decide) (val_main_v5 (F := Ideal) cols) e = Cert.Sparse.colOf cols e := by
  apply Fin.ext
  rw [Cert.LibColGather.colAt_val, Cert.Sparse.colOf_val cols e (hc _), val_main_v5_apply]
  have h5 : idx_main_v5 (ixP e) = ix1 e := by
    funext a; match a with | ⟨0, _⟩ => rfl
  rw [h5, start_word cols hc, toInt_eq_toNat_of_lt (by have := hc (ix1 e); omega), Int.toNat_natCast]
  have := hc (ix1 e)
  omega

/-- The row test of the scatter: a row word in [0, D) names row n, read signed, exactly when its value is n. -/
theorem row_test (rows : IVec S1000000 32) (hr : ∀ i, (rows i).toNat < 16384) (e : Fin 1000000) (n : ℕ) :
    (val_main_v12 (F := Ideal) rows (ixP e)).toInt = (n : ℤ) ↔ (rows (ix1 e)).toNat = n := by
  rw [val_main_v12_apply]
  have h12 : idx_main_v12 (ixP e) = ix1 e := by
    funext a; match a with | ⟨0, _⟩ => rfl
  rw [h12, toInt_eq_toNat_of_lt (by have := hr (ix1 e); omega)]
  exact Int.natCast_inj

/-- Row e of the update at batch b: x at (b, column of e) times the weight of e. -/
theorem edge_term (x : FVec Ideal S256x16384 .f32) (w : FVec Ideal S1000000 .f32) (cols : IVec S1000000 32)
    (hc : ∀ i, (cols i).toNat < 16384) (e : Fin 1000000) (b : Fin 256) :
    val_main_v10 (F := Ideal) x w cols (ix2 e b) = x (ix2 b (Cert.Sparse.colOf cols e)) * w (ix1 e) := by
  rw [val_main_v10_apply, val_main_v9_apply, Ideal.mulf_def, val_main_v8_apply, val_main_v7_apply]
  have h10 : idx_main_v10 (ix2 e b) = ix2 b e := by
    funext a; match a with | ⟨0, _⟩ => rfl | ⟨1, _⟩ => rfl
  have h7 : idx_main_v7 (idx_main_v8 (ix2 b e)) = ix1 e := by
    funext a; match a with | ⟨0, _⟩ => rfl
  rw [h10, h7]
  unfold val_main_v6
  rw [Cert.LibColGather.gather_cols _ rfl rfl rfl rfl rfl x _ (by decide) b e, col_read cols hc e]

/-- Entry (b, n) of the reference's result: the edge sum of row n at batch b, plus the bias. -/
theorem ref_at (x : FVec Ideal S256x16384 .f32) (w : FVec Ideal S1000000 .f32) (bias : FVec Ideal S16384 .f32)
    (rows cols : IVec S1000000 32)
    (hr : ∀ i, (rows i).toNat < 16384) (hc : ∀ i, (cols i).toNat < 16384) (b : Fin 256) (n : Fin 16384) :
    val_main_v17 (F := Ideal) x w bias rows cols (ix2 b n)
      = (∑ e ∈ Cert.Sparse.edgesOf rows n.val, x (ix2 b (Cert.Sparse.colOf cols e)) * w (ix1 e)) + bias (ix1 n) := by
  rw [val_main_v17_apply, Ideal.addf_def, val_main_v14_apply, val_main_v16_apply, val_main_v15_apply]
  have h14 : idx_main_v14 (ix2 b n) = ix2 n b := by
    funext a; match a with | ⟨0, _⟩ => rfl | ⟨1, _⟩ => rfl
  have h16 : idx_main_v15 (idx_main_v16 (ix2 b n)) = ix1 n := by
    funext a; match a with | ⟨0, _⟩ => rfl
  rw [h14, h16]
  unfold val_main_v13
  rw [Cert.LibRows.scatterAdd_rows _ rfl rfl rfl rfl]
  rw [val_main_v11_apply, val_main_cst_apply, Ideal.ofBits_def, Ideal.ofBits_zero_f32, zero_add]
  have hs : ∑ e ∈ Finset.univ.filter (fun e : Fin 1000000 => (val_main_v12 (F := Ideal) rows (ixP e)).toInt = ((n.val : ℕ) : ℤ)),
        val_main_v10 (F := Ideal) x w cols (ix2 e b)
      = ∑ e ∈ Cert.Sparse.edgesOf rows n.val, x (ix2 b (Cert.Sparse.colOf cols e)) * w (ix1 e) := by
    unfold Cert.Sparse.edgesOf
    rw [Finset.filter_congr (fun e _ => row_test rows hr e n.val)]
    exact Finset.sum_congr rfl fun e _ => edge_term x w cols hc e b
  rw [hs]

end Reads

/-- For index words in [0, D) the reference's result is the edge sum. -/
theorem ref_eq_spec (x : FVec Ideal S256x16384 .f32) (w : FVec Ideal S1000000 .f32) (bias : FVec Ideal S16384 .f32)
    (rows cols : IVec S1000000 32)
    (hr : ∀ i, (rows i).toNat < 16384) (hc : ∀ i, (cols i).toNat < 16384) :
    val_main_v17 (F := Ideal) x w bias rows cols = Cert.Sparse.spec x w bias rows cols := by
  funext i
  obtain ⟨b, n, rfl⟩ : ∃ (b : Fin 256) (n : Fin 16384), i = ix2 b n := ⟨i 0, i 1, eq_ix2 i⟩
  exact ref_at x w bias rows cols hr hc b n

end Cert.ReferenceIdeal.RefValue

end
-- ==== Proof.Domain.lean ====
/-
  What the precondition says of the arguments.

  The precondition is one bit: the conjunction of seven tests, each a conjunction over a whole array — every entry of x,
  of the weights and of the bias is below +∞ in absolute value, and every row word and every column word is at least 0 and
  below 16384 as a signed number. Read entry by entry: the three float arrays hold real numbers, and the two index arrays
  hold words whose value as a natural number is below 16384.
-/
import proofs.«411924_j49538152792604_2_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Domain

open Idealize.ShloMosaic Cert.Pre_finite_inputs

variable [Cert.Pre_finite_inputs.Facts]

/-- The scalar shape has one index. -/
private instance : Subsingleton S_.Idx := ⟨fun a b => funext fun d => d.elim0⟩

/-- The float pattern with all exponent bits set and no fraction bit is +∞. -/
theorem ofBits_inf : Ideal.ofBits .f32 0x7F800000#32 = ⊤ := by simp [Ideal.ofBits, Ideal.ieee]

/-- An extended real whose absolute value, the larger of x and −x, is below +∞ is a real number: +∞ is its own absolute
    value and −∞ has absolute value +∞. -/
theorem real_of_abs_lt_top (x : EReal) (h : max x (-x) < ⊤) : ∃ r : ℝ, x = (r : EReal) := by
  induction x using EReal.rec with
  | bot => simp at h
  | coe r => exact ⟨r, rfl⟩
  | top => simp at h

/-- The float test at one entry: |x| < +∞ as an ordered comparison that came out 1 makes x a real number. -/
theorem real_of_test (x : Ideal .f32)
    (h : FloatOps.cmpf (F := Ideal) .olt (FloatOps.hostAbsf x) (FloatOps.ofBits .f32 0x7F800000#32) = 1#1) :
    ∃ r : ℝ, x = (r : EReal) := by
  apply real_of_abs_lt_top
  have h' : BitVec.ofBool (decide (max x (-x) < Ideal.ofBits .f32 0x7F800000#32)) = 1#1 := h
  rw [ofBits_inf, StableHlo.Predicate.ofBool_eq_one_iff, decide_eq_true_eq] at h'
  exact h'

/-- The word tests at one entry: a word at least 0 and below 16384 as a signed number is below 16384 as a natural number
    (a word with its top bit set reads negative as a signed number). -/
theorem toNat_lt_of_tests (v : BitVec 32) (h0 : IntOp.cmpi .sge v 0#32 = 1#1) (h1 : IntOp.cmpi .slt v 16384#32 = 1#1) :
    v.toNat < 16384 := by
  rw [IntOp.cmpi_sge] at h0
  rw [IntOp.cmpi_slt] at h1
  have e0 : (0#32 : BitVec 32).toInt = 0 := by decide
  have e1 : (16384#32 : BitVec 32).toInt = 16384 := by decide
  have hc := BitVec.toInt_eq_toNat_cond v
  have hl := v.isLt
  split at hc <;> omega

/-- The precondition, entry by entry. -/
theorem of_fn (x : FVec Ideal S256x16384 .f32) (w : FVec Ideal S1000000 .f32) (bias : FVec Ideal S16384 .f32)
    (rows cols : IVec S1000000 32)
    (h : Cert.Pre_finite_inputs.fn (F := Ideal) x w bias rows cols = fun _ => 1#1) :
    (∀ i, ∃ r : ℝ, x i = (r : EReal)) ∧ (∀ i, ∃ r : ℝ, w i = (r : EReal)) ∧ (∀ i, ∃ r : ℝ, bias i = (r : EReal))
      ∧ (∀ i, (rows i).toNat < 16384) ∧ (∀ i, (cols i).toNat < 16384) := by
  have h0 := congrFun h ValueIdx.ix0
  dsimp only [fn, fn_part1] at h0
  simp only [andi, IntOp.andi_eq_one] at h0
  obtain ⟨⟨⟨⟨⟨⟨hx, hw⟩, hb⟩, hr0⟩, hr1⟩, hc0⟩, hc1⟩ := h0
  refine ⟨fun i => ?_, fun i => ?_, fun i => ?_, fun i => ?_, fun i => ?_⟩
  · exact real_of_test (x i) (Host.reduce_andi_all _ _ _ _ _ hx i)
  · exact real_of_test (w i) (Host.reduce_andi_all _ _ _ _ _ hw i)
  · exact real_of_test (bias i) (Host.reduce_andi_all _ _ _ _ _ hb i)
  · exact toNat_lt_of_tests (rows i) (Host.reduce_andi_all _ _ _ _ _ hr0 i) (Host.reduce_andi_all _ _ _ _ _ hr1 i)
  · exact toNat_lt_of_tests (cols i) (Host.reduce_andi_all _ _ _ _ _ hc0 i) (Host.reduce_andi_all _ _ _ _ _ hc1 i)

end Cert.Domain

end
-- ==== Proof.lean ====
/-
  A sparse linear layer  y = x · Wᵀ + b,  W a 16384 × 16384 matrix given by a million nonzero entries (row word, column
  word, weight), against its edge-by-edge jnp reference, over the extended reals.

  The kernel first adds the weights into a dense W on the host and then computes x · Wᵀ + b tile by tile: for each tile of
  2048 output features it runs over 16 tiles of 1024 input features, accumulating tile products from zero, and at the last
  one adds the bias and writes the output tile. The reference gathers column (col e) of x for every edge e, multiplies by
  the edge's weight and adds the products into row (row e) of the result, then adds the bias. Entry (b, n) of both is

      Σ_{e : row e = n} x[b, col e] · w e + bias n:

  the kernel's  Σ_k x[b, k] · (Σ_{e at (n, k)} w e)  distributes and regroups to it, which is sound because x and the
  weights hold real numbers (the precondition's finiteness); the bias is only added at the end on both sides.

  The two programs treat index words outside [0, 16384) differently (the kernel wraps a negative row word, the reference
  drops it; the kernel drops a column word past the end, the reference clamps it), so the statement carries the evident
  domain of the indices: every row word and every column word is in [0, 16384). It is decoded from the precondition in
  Proof/Domain.lean.

  Modules: Proof/Spec.lean (the edge sum and the dense weight), Proof/SpecLaws.lean (tiles of a row; the regrouping law),
  Proof/Domain.lean (the precondition read entry by entry), Proof/RefEdges.lean (the reference is the edge sum),
  Proof/DenseWeight.lean (the host's dense W and bias row), Proof/Payload.lean, Proof/Pieces.lean, Proof/Tiles.lean,
  Proof/Accumulate.lean, Proof/KernelResult.lean (the kernel, from one grid point to the result array). The frames of the two
  kernel programs are the generated ones; the reference's frame is its generated run with the result dropped; the ideal
  pass rewrote nothing.
-/
import proofs.«411924_j49538152792604_2_alg».proof.Defs
import proofs.«411924_j49538152792604_2_alg».proof.Proof.Gen.Kernel
import proofs.«411924_j49538152792604_2_alg».proof.Proof.Gen.Kernel.Skeleton
import proofs.«411924_j49538152792604_2_alg».proof.Proof.Gen.Kernel.Launch
import proofs.«411924_j49538152792604_2_alg».proof.Proof.Gen.Kernel.Points
import proofs.«411924_j49538152792604_2_alg».proof.Proof.Gen.Kernel.Frame
import proofs.«411924_j49538152792604_2_alg».proof.Proof.Gen.KernelIdeal
import proofs.«411924_j49538152792604_2_alg».proof.Proof.Gen.KernelIdeal.Skeleton
import proofs.«411924_j49538152792604_2_alg».proof.Proof.Gen.KernelIdeal.Launch
import proofs.«411924_j49538152792604_2_alg».proof.Proof.Gen.KernelIdeal.Points
import proofs.«411924_j49538152792604_2_alg».proof.Proof.Gen.KernelIdeal.Frame
import proofs.«411924_j49538152792604_2_alg».proof.Proof.Gen.ReferenceIdeal
import proofs.«411924_j49538152792604_2_alg».proof.Proof.Gen.Pre_finite_inputs
import proofs.«411924_j49538152792604_2_alg».proof.Proof.Gen.KernelIdeal.Value
import proofs.«411924_j49538152792604_2_alg».proof.Proof.Gen.ReferenceIdeal.Run
import proofs.«411924_j49538152792604_2_alg».proof.Proof.Gen.ReferenceIdeal.Read
import proofs.«411924_j49538152792604_2_alg».proof.Proof.KernelResult
import proofs.«411924_j49538152792604_2_alg».proof.Proof.RefEdges
import proofs.«411924_j49538152792604_2_alg».proof.Proof.Domain
import Idealize.ShloMosaic.Adequacy
import Idealize.ShloMosaic.Init

noncomputable section

namespace Cert.Proof

open Idealize.ShloMosaic Idealize.ShloMosaic.TcCoe Idealize.SL.Sem

/-- The precondition gives, on every device, real x and weights and index words in [0, 16384). -/
theorem dom_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Result.Dom m c := by
  obtain ⟨hx, hw, -, hr, hc⟩ := Cert.Domain.of_fn _ _ _ _ _ (h c)
  exact ⟨hx, hw, hr, hc⟩

/-- Run from memories that agree on the arguments, the kernel and the reference both end with the layer's result. -/
theorem algebraic : Cert.algebraic_KernelIdeal_ReferenceIdeal := by
  intro m ρ m' ρ' hpre hagree
  refine ⟨fun c => Cert.KernelIdeal.Result.out m c, Cert.KernelIdeal.Result.run m ρ (dom_of_pre m hpre), ?_⟩
  refine (θ_run Cert.ReferenceIdeal.defs _ _).mono (fun _ h c => ⟨(h c).1.trans ?_, (h c).2⟩)
    (Cert.ReferenceIdeal.Value.run (F := Ideal) m' ρ')
  obtain ⟨-, -, -, hr, hc⟩ := Cert.Domain.of_fn _ _ _ _ _ (hpre c)
  rw [Cert.ReferenceIdeal.Read.val_main_v17_eq, (hagree c).1, (hagree c).2.1, (hagree c).2.2.1, (hagree c).2.2.2.1,
    (hagree c).2.2.2.2]
  exact Cert.ReferenceIdeal.RefValue.ref_eq_spec _ _ _ _ _ hr hc

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
